-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x4096 : Shape := ⟨2, ![20000, 4096]⟩
abbrev S4096x21 : Shape := ⟨2, ![4096, 21]⟩
abbrev S21 : Shape := ⟨1, ![21]⟩
abbrev S4096x80 : Shape := ⟨2, ![4096, 80]⟩
abbrev S80 : Shape := ⟨1, ![80]⟩
abbrev S_ : Shape := ⟨0, ![]⟩

class Facts : Prop where
  bcast_S_S20000x4096 : S_.BroadcastsInDim S20000x4096 (![] : Fin 0 → Fin S20000x4096.rank)
  reducesTo_S20000x4096_S_d0_1 : S20000x4096.ReducesTo [0, 1] S_
  h_S_ : 0 < S_.numel
  bcast_S_S4096x21 : S_.BroadcastsInDim S4096x21 (![] : Fin 0 → Fin S4096x21.rank)
  reducesTo_S4096x21_S_d0_1 : S4096x21.ReducesTo [0, 1] S_
  bcast_S_S21 : S_.BroadcastsInDim S21 (![] : Fin 0 → Fin S21.rank)
  reducesTo_S21_S_d0 : S21.ReducesTo [0] S_
  bcast_S_S4096x80 : S_.BroadcastsInDim S4096x80 (![] : Fin 0 → Fin S4096x80.rank)
  reducesTo_S4096x80_S_d0_1 : S4096x80.ReducesTo [0, 1] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v13 : IVec S_ 1) (main_v16 : IVec S4096x80 1) : IVec S_ 1 :=
  let main_c_5 : IVec S_ 1 := constantI S_ 1 1#1
  let main_v17 : IVec S_ 1 := (fun x v => Host.reduce IntOp.andi x v reducesTo_S4096x80_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  main_v23

def fn {F : FTy → Type} [FloatOps F] (main_arg0 : FVec F S20000x4096 .f32) (main_arg1 : FVec F S4096x21 .f32) (main_arg2 : FVec F S21 .f32) (main_arg3 : FVec F S4096x80 .f32) (main_arg4 : FVec F S80 .f32) : IVec S_ 1 :=
  let main_v0 : FVec F S20000x4096 .f32 := Host.absf main_arg0
  let main_cst : FVec F S_ .f32 := constant S_ .f32 0x7F800000#32
  let main_v1 : FVec F S20000x4096 .f32 := broadcastInDim S20000x4096 ![] bcast_S_S20000x4096 main_cst
  let main_v2 : IVec S20000x4096 1 := cmpf .olt main_v0 main_v1
  let main_c : IVec S_ 1 := constantI S_ 1 1#1
  let main_v3 : IVec S_ 1 := (fun x v => Host.reduce IntOp.andi x v reducesTo_S20000x4096_S_d0_1 h_S_) main_v2 main_c
  let main_v4 : FVec F S4096x21 .f32 := Host.absf main_arg1
  let main_cst_0 : FVec F S_ .f32 := constant S_ .f32 0x7F800000#32
  let main_v5 : FVec F S4096x21 .f32 := broadcastInDim S4096x21 ![] bcast_S_S4096x21 main_cst_0
  let main_v6 : IVec S4096x21 1 := cmpf .olt main_v4 main_v5
  let main_c_1 : IVec S_ 1 := constantI S_ 1 1#1
  let main_v7 : IVec S_ 1 := (fun x v => Host.reduce IntOp.andi x v reducesTo_S4096x21_S_d0_1 h_S_) main_v6 main_c_1
  let main_v8 : IVec S_ 1 := andi main_v3 main_v7
  let main_v9 : FVec F S21 .f32 := Host.absf main_arg2
  let main_cst_2 : FVec F S_ .f32 := constant S_ .f32 0x7F800000#32
  let main_v10 : FVec F S21 .f32 := broadcastInDim S21 ![] bcast_S_S21 main_cst_2
  let main_v11 : IVec S21 1 := cmpf .olt main_v9 main_v10
  let main_c_3 : IVec S_ 1 := constantI S_ 1 1#1
  let main_v12 : IVec S_ 1 := (fun x v => Host.reduce IntOp.andi x v reducesTo_S21_S_d0 h_S_) main_v11 main_c_3
  let main_v13 : IVec S_ 1 := andi main_v8 main_v12
  let main_v14 : FVec F S4096x80 .f32 := Host.absf main_arg3
  let main_cst_4 : FVec F S_ .f32 := constant S_ .f32 0x7F800000#32
  let main_v15 : FVec F S4096x80 .f32 := broadcastInDim S4096x80 ![] bcast_S_S4096x80 main_cst_4
  let main_v16 : IVec S4096x80 1 := cmpf .olt main_v14 main_v15
  fn_part1 (F := F) main_arg4 main_v13 main_v16
-- ==== Kernel.lean ====
abbrev S20000x4096 : Shape := ⟨2, ![20000, 4096]⟩
abbrev S4096x21 : Shape := ⟨2, ![4096, 21]⟩
abbrev S21 : Shape := ⟨1, ![21]⟩
abbrev S4096x80 : Shape := ⟨2, ![4096, 80]⟩
abbrev S80 : Shape := ⟨1, ![80]⟩
abbrev S_ : Shape := ⟨0, ![]⟩
abbrev S4096x128 : Shape := ⟨2, ![4096, 128]⟩
abbrev S4096x256 : Shape := ⟨2, ![4096, 256]⟩
abbrev S128 : Shape := ⟨1, ![128]⟩
abbrev S256 : Shape := ⟨1, ![256]⟩
abbrev S1x256 : Shape := ⟨2, ![1, 256]⟩
abbrev S20000x21 : Shape := ⟨2, ![20000, 21]⟩
abbrev S20000x80 : Shape := ⟨2, ![20000, 80]⟩
abbrev S1000x4096 : Shape := ⟨2, ![1000, 4096]⟩
abbrev S1000x21 : Shape := ⟨2, ![1000, 21]⟩
abbrev S1000x80 : Shape := ⟨2, ![1000, 80]⟩
abbrev S1000x256 : Shape := ⟨2, ![1000, 256]⟩

abbrev nBuf : Space → Nat
  | .hbm => 22
  | .vmem => 8
  | .smem => 0
  | _ => 0

abbrev bufTy : (tb : Table) → Fin (tcTables nBuf tb) → BufTy
  | .hbm, ⟨0, _⟩ => ⟨S20000x4096, .f32⟩
  | .hbm, ⟨1, _⟩ => ⟨S4096x21, .f32⟩
  | .hbm, ⟨2, _⟩ => ⟨S21, .f32⟩
  | .hbm, ⟨3, _⟩ => ⟨S4096x80, .f32⟩
  | .hbm, ⟨4, _⟩ => ⟨S80, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S4096x256, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S256, .f32⟩
  | .hbm, ⟨19, _⟩ => ⟨S1x256, .f32⟩
  | .hbm, ⟨20, _⟩ => ⟨S20000x21, .f32⟩
  | .hbm, ⟨21, _⟩ => ⟨S20000x80, .f32⟩
  | .local _ .vmem, ⟨0, _⟩ => ⟨S1000x4096, .f32⟩
  | .local _ .vmem, ⟨1, _⟩ => ⟨S1000x4096, .f32⟩
  | .local _ .vmem, ⟨2, _⟩ => ⟨S4096x256, .f32⟩
  | .local _ .vmem, ⟨3, _⟩ => ⟨S1x256, .f32⟩
  | .local _ .vmem, ⟨4, _⟩ => ⟨S1000x21, .f32⟩
  | .local _ .vmem, ⟨5, _⟩ => ⟨S1000x21, .f32⟩
  | .local _ .vmem, ⟨6, _⟩ => ⟨S1000x80, .f32⟩
  | .local _ .vmem, ⟨7, _⟩ => ⟨S1000x80, .f32⟩
  | _, _ => ⟨S20000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_call3_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S4096x21_S4096x128_000_01070 : S4096x21.Pads (![0, 0] : Fin 2 → Nat) ![0, 107] ![0, 0] S4096x128
  h_S_ : 0 < S_.numel
  pads_S4096x80_S4096x128_000_0480 : S4096x80.Pads (![0, 0] : Fin 2 → Nat) ![0, 48] ![0, 0] S4096x128
  concatenates_S4096x128_S4096x128_S4096x256_d1 : Shape.Concatenates [S4096x128, S4096x128] S4096x256 1
  pads_S21_S128_01070 : S21.Pads (![0] : Fin 1 → Nat) ![107] ![0] S128
  pads_S80_S128_0480 : S80.Pads (![0] : Fin 1 → Nat) ![48] ![0] S128
  concatenates_S128_S128_S256_d0 : Shape.Concatenates [S128, S128] S256 0
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1000x4096_S1000x4096_0_0 : ∀ a, (![0, 0] : Fin 2 → Nat) a + S1000x4096.size a ≤ S1000x4096.size a
  h_S1000x4096 : 0 < S1000x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S1000x256 : S1x256.Broadcasts S1000x256
  slices_S1000x256_o0_0_S1000x21 : S1000x256.Slices ![0, 0] S1000x21
  inb_S1000x21_S1000x21_0_0 : ∀ a, (![0, 0] : Fin 2 → Nat) a + S1000x21.size a ≤ S1000x21.size a
  h_S1000x21 : 0 < S1000x21.numel
  slices_S1000x256_o0_128_S1000x80 : S1000x256.Slices ![0, 128] S1000x80
  inb_S1000x80_S1000x80_0_0 : ∀ a, (![0, 0] : Fin 2 → Nat) a + S1000x80.size a ≤ S1000x80.size a
  h_S1000x80 : 0 < S1000x80.numel
  dot_S1000x4096_S4096x256_S1000x256_1_0_0_1_n_n_wf : DotDims.WF S1000x4096 S4096x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4096.size a ≤ S20000x4096.size a
  hwx0_0 : ∀ i : grid0.Coords, EltTy.bits .f32 = 32 ∨ (Rect.block (s := S20000x4096) S1000x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x21.size a ≤ S20000x21.size a
  hwx0_3 : ∀ i : grid0.Coords, EltTy.bits .f32 = 32 ∨ (Rect.block (s := S20000x21) S1000x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x80.size a ≤ S20000x80.size a
  hwx0_4 : ∀ i : grid0.Coords, EltTy.bits .f32 = 32 ∨ (Rect.block (s := S20000x80) S1000x80.size (cc0_transform_4 i) (hinb0_4 i)).WholeWords (EltTy.packing .f32)

variable [Facts₀]

def dot_S1000x4096_S4096x256_S1000x256_1_0_0_1_n_n : DotDims S1000x4096 S4096x256 S1000x256 where
  lhsContracting := [1]
  rhsContracting := [0]
  lhsNonContracting := [0]
  rhsNonContracting := [1]
  lhsBatch := []
  rhsBatch := []
  wf := dot_S1000x4096_S4096x256_S1000x256_1_0_0_1_n_n_wf

abbrev win0_0 : Pipeline.Window sig grid0 :=
  Pipeline.Window.ofSpec (Memref.whole main_arg0) S1000x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1000x21.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1000x80.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20000x4096 : Shape := ⟨2, ![20000, 4096]⟩
abbrev S4096x21 : Shape := ⟨2, ![4096, 21]⟩
abbrev S21 : Shape := ⟨1, ![21]⟩
abbrev S4096x80 : Shape := ⟨2, ![4096, 80]⟩
abbrev S80 : Shape := ⟨1, ![80]⟩
abbrev S20000x21 : Shape := ⟨2, ![20000, 21]⟩
abbrev S1x21 : Shape := ⟨2, ![1, 21]⟩
abbrev S20000x80 : Shape := ⟨2, ![20000, 80]⟩
abbrev S1x80 : Shape := ⟨2, ![1, 80]⟩

abbrev nBuf : Space → Nat
  | .hbm => 13
  | .vmem => 0
  | .smem => 0
  | _ => 0

abbrev bufTy : (tb : Table) → Fin (tcTables nBuf tb) → BufTy
  | .hbm, ⟨0, _⟩ => ⟨S20000x4096, .f32⟩
  | .hbm, ⟨1, _⟩ => ⟨S4096x21, .f32⟩
  | .hbm, ⟨2, _⟩ => ⟨S21, .f32⟩
  | .hbm, ⟨3, _⟩ => ⟨S4096x80, .f32⟩
  | .hbm, ⟨4, _⟩ => ⟨S80, .f32⟩
  | .hbm, ⟨5, _⟩ => ⟨S20000x21, .f32⟩
  | .hbm, ⟨6, _⟩ => ⟨S1x21, .f32⟩
  | .hbm, ⟨7, _⟩ => ⟨S20000x21, .f32⟩
  | .hbm, ⟨8, _⟩ => ⟨S20000x21, .f32⟩
  | .hbm, ⟨9, _⟩ => ⟨S20000x80, .f32⟩
  | .hbm, ⟨10, _⟩ => ⟨S1x80, .f32⟩
  | .hbm, ⟨11, _⟩ => ⟨S20000x80, .f32⟩
  | .hbm, ⟨12, _⟩ => ⟨S20000x80, .f32⟩
  | _, _ => ⟨S20000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S21_S1x21_1 : S21.BroadcastsInDim S1x21 (![1] : Fin 1 → Fin S1x21.rank)
  bcast_S1x21_S20000x21_0_1 : S1x21.BroadcastsInDim S20000x21 (![0, 1] : Fin 2 → Fin S20000x21.rank)
  bcast_S80_S1x80_1 : S80.BroadcastsInDim S1x80 (![1] : Fin 1 → Fin S1x80.rank)
  bcast_S1x80_S20000x80_0_1 : S1x80.BroadcastsInDim S20000x80 (![0, 1] : Fin 2 → Fin S20000x80.rank)
  dot_S20000x4096_S4096x21_S20000x21_1_0_0_1_n_n_wf : DotDims.WF S20000x4096 S4096x21 S20000x21 [1] [0] [0] [1] [] []
  dot_S20000x4096_S4096x80_S20000x80_1_0_0_1_n_n_wf : DotDims.WF S20000x4096 S4096x80 S20000x80 [1] [0] [0] [1] [] []

variable [Facts₀]

def dot_S20000x4096_S4096x21_S20000x21_1_0_0_1_n_n : DotDims S20000x4096 S4096x21 S20000x21 where
  lhsContracting := [1]
  rhsContracting := [0]
  lhsNonContracting := [0]
  rhsNonContracting := [1]
  lhsBatch := []
  rhsBatch := []
  wf := dot_S20000x4096_S4096x21_S20000x21_1_0_0_1_n_n_wf
def dot_S20000x4096_S4096x80_S20000x80_1_0_0_1_n_n : DotDims S20000x4096 S4096x80 S20000x80 where
  lhsContracting := [1]
  rhsContracting := [0]
  lhsNonContracting := [0]
  rhsNonContracting := [1]
  lhsBatch := []
  rhsBatch := []
  wf := dot_S20000x4096_S4096x80_S20000x80_1_0_0_1_n_n_wf

class Facts : Prop extends Facts₀ where

variable [Facts]
-- ==== Proof.Heads.lean ====
/-
  The two linear heads of the detection output layer, as ONE function of the argument arrays.

  For an activation matrix x of shape [20000, 4096], a weight matrix W of shape [4096, N] and a bias vector b of
  length N, the head's entry at row r and column j is

      head x W b (r, j) = (∑ k < 4096, x[r, k] · W[k, j]) + b[j]

  on the extended reals. Both programs compute this function twice, for (W_cls, b_cls) with N = 21 and for
  (W_box, b_box) with N = 80: the reference as a product of the whole matrices followed by the bias; the kernel by one
  product against the two weight matrices laid side by side in a [4096, 256] matrix (each zero-extended to 128 columns),
  the bias added in front, and columns 0 … 20 and 128 … 207 kept. The only law between the two spellings is that the sum
  of two extended reals does not depend on their order, which holds at the infinities too.
-/
import Idealize.ShloMosaic.PureOps.Ideal
import Idealize.ShloMosaic.Lib.ValueIdx

noncomputable section

namespace Cert.Heads

open Idealize.ShloMosaic

variable {N : Nat}

/-- The activation entry the `k`-th term of output entry `i = (r, j)` reads: `(r, k)`. -/
abbrev actAt (i : (⟨2, ![20000, N]⟩ : Shape).Idx) (k : Fin 4096) : (⟨2, ![20000, 4096]⟩ : Shape).Idx := fun a => match a with
  | ⟨0, _⟩ => ⟨(i 0).val, (i 0).isLt⟩
  | ⟨1, _⟩ => ⟨k.val, k.isLt⟩

/-- The weight entry the `k`-th term of output entry `i = (r, j)` reads: `(k, j)`. -/
abbrev weightAt (i : (⟨2, ![20000, N]⟩ : Shape).Idx) (k : Fin 4096) : (⟨2, ![4096, N]⟩ : Shape).Idx := fun a => match a with
  | ⟨0, _⟩ => ⟨k.val, k.isLt⟩
  | ⟨1, _⟩ => ⟨(i 1).val, (i 1).isLt⟩

/-- The bias entry output entry `i = (r, j)` reads: `j`. -/
abbrev biasAt (i : (⟨2, ![20000, N]⟩ : Shape).Idx) : (⟨1, ![N]⟩ : Shape).Idx := fun a => match a with
  | ⟨0, _⟩ => ⟨(i 1).val, (i 1).isLt⟩

/-- One linear head: row `r` of `x` against column `j` of `W`, plus `b[j]`. -/
def head (x : FVec Ideal ⟨2, ![20000, 4096]⟩ .f32) (W : FVec Ideal ⟨2, ![4096, N]⟩ .f32) (b : FVec Ideal ⟨1, ![N]⟩ .f32) :
    FVec Ideal ⟨2, ![20000, N]⟩ .f32 :=
  fun i => (∑ k : Fin 4096, x (actAt i k) * W (weightAt i k)) + b (biasAt i)

end Cert.Heads

end
-- ==== Proof.KernelPayload.lean ====
/-
  What the kernel body computes before it slices: for one block of 1000 rows x, the packed weights W' : [4096, 256]
  and the packed bias row b' : [1, 256], the [1000, 256] value

      acc (p, q) = b'[0, q] + ∑ k < 4096, x[p, k] · W'[k, q]

  (the bias row copied down the rows, plus the matrix product into a zero accumulator), read at an index at the ideal
  instance. The two shape casts of the body are between equal shapes and do nothing.
-/
import proofs.«170445_g790273982473_cont_9to1c4b_231_13_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Fused

open Cert.KernelIdeal Cert.KernelIdeal.Gen Idealize.ShloMosaic

/-! ## The product's operand indices, axis by axis -/

theorem lhs_acc_0 (i : S1000x256.Idx) (q : dot_S1000x4096_S4096x256_S1000x256_1_0_0_1_n_n.contr.Idx) :
    (dot_S1000x4096_S4096x256_S1000x256_1_0_0_1_n_n.lhsIdx i q 0).val = (i 0).val := by
  unfold DotDims.lhsIdx
  rw [dif_neg (show ¬(0 : Fin S1000x4096.rank) ∈ dot_S1000x4096_S4096x256_S1000x256_1_0_0_1_n_n.lhsBatch by decide), dif_pos (show (0 : Fin S1000x4096.rank) ∈ dot_S1000x4096_S4096x256_S1000x256_1_0_0_1_n_n.lhsNonContracting by decide)]
  rfl
theorem lhs_acc_1 (i : S1000x256.Idx) (q : dot_S1000x4096_S4096x256_S1000x256_1_0_0_1_n_n.contr.Idx) :
    (dot_S1000x4096_S4096x256_S1000x256_1_0_0_1_n_n.lhsIdx i q 1).val = (q ⟨0, by decide⟩).val :=
  dot_S1000x4096_S4096x256_S1000x256_1_0_0_1_n_n.lhsIdx_val_of_single rfl i q
theorem rhs_acc_0 (i : S1000x256.Idx) (q : dot_S1000x4096_S4096x256_S1000x256_1_0_0_1_n_n.contr.Idx) :
    (dot_S1000x4096_S4096x256_S1000x256_1_0_0_1_n_n.rhsIdx i q 0).val = (q ⟨0, by decide⟩).val :=
  dot_S1000x4096_S4096x256_S1000x256_1_0_0_1_n_n.rhsIdx_val_of_single rfl i q
theorem rhs_acc_1 (i : S1000x256.Idx) (q : dot_S1000x4096_S4096x256_S1000x256_1_0_0_1_n_n.contr.Idx) :
    (dot_S1000x4096_S4096x256_S1000x256_1_0_0_1_n_n.rhsIdx i q 1).val = (i 1).val := by
  unfold DotDims.rhsIdx
  rw [dif_neg (show ¬(1 : Fin S4096x256.rank) ∈ dot_S1000x4096_S4096x256_S1000x256_1_0_0_1_n_n.rhsBatch by decide), dif_pos (show (1 : Fin S4096x256.rank) ∈ dot_S1000x4096_S4096x256_S1000x256_1_0_0_1_n_n.rhsNonContracting by decide)]
  rfl

/-- Entry `(p, k)` of the block of rows, for the accumulator entry `i = (p, q)`. -/
abbrev rowAt (i : S1000x256.Idx) (k : Fin 4096) : S1000x4096.Idx := fun a => match a with
  | ⟨0, _⟩ => ⟨(i 0).val, (i 0).isLt⟩
  | ⟨1, _⟩ => ⟨k.val, k.isLt⟩
/-- Entry `(k, q)` of the packed weights, for the accumulator entry `i = (p, q)`. -/
abbrev colAt (i : S1000x256.Idx) (k : Fin 4096) : S4096x256.Idx := fun a => match a with
  | ⟨0, _⟩ => ⟨k.val, k.isLt⟩
  | ⟨1, _⟩ => ⟨(i 1).val, (i 1).isLt⟩
/-- Entry `(0, q)` of the packed bias row, for the accumulator entry `i = (p, q)`. -/
abbrev biasRowAt (i : S1000x256.Idx) : S1x256.Idx := fun a => match a with
  | ⟨0, _⟩ => ⟨0, Nat.one_pos⟩
  | ⟨1, _⟩ => ⟨(i 1).val, (i 1).isLt⟩

/-- The product into the zero accumulator, at an index: the sum over the 4096 contracted positions. -/
theorem product_apply (x : FVec Ideal S1000x4096 .f32) (w : FVec Ideal S4096x256 .f32) (i : S1000x256.Idx) :
    matmul dot_S1000x4096_S4096x256_S1000x256_1_0_0_1_n_n none x w (constant S1000x256 .f32 0x00000000#32) i = ∑ k : Fin 4096, x (rowAt i k) * w (colAt i k) := by
  show FloatOps.matmul dot_S1000x4096_S4096x256_S1000x256_1_0_0_1_n_n none x w (constant S1000x256 .f32 0x00000000#32) i = _
  rw [Ideal.matmul_constant_zero_apply, ← Equiv.sum_comp (ValueIdx.contrEquiv1 dot_S1000x4096_S4096x256_S1000x256_1_0_0_1_n_n 4096 rfl rfl).symm]
  refine Finset.sum_congr rfl fun k _ => ?_
  have hk := ValueIdx.contrEquiv1_symm_val dot_S1000x4096_S4096x256_S1000x256_1_0_0_1_n_n 4096 rfl rfl k
  have el : dot_S1000x4096_S4096x256_S1000x256_1_0_0_1_n_n.lhsIdx i ((ValueIdx.contrEquiv1 dot_S1000x4096_S4096x256_S1000x256_1_0_0_1_n_n 4096 rfl rfl).symm k) = rowAt i k := funext fun a => Fin.ext (by
    match a with
    | ⟨0, _⟩ => exact lhs_acc_0 _ _
    | ⟨1, _⟩ => exact (lhs_acc_1 _ _).trans hk)
  have er : dot_S1000x4096_S4096x256_S1000x256_1_0_0_1_n_n.rhsIdx i ((ValueIdx.contrEquiv1 dot_S1000x4096_S4096x256_S1000x256_1_0_0_1_n_n 4096 rfl rfl).symm k) = colAt i k := funext fun a => Fin.ext (by
    match a with
    | ⟨0, _⟩ => exact (rhs_acc_0 _ _).trans hk
    | ⟨1, _⟩ => exact rhs_acc_1 _ _)
  rw [el, er]

/-- The bias row copied down the 1000 rows, at an index: the row's entry in that column. -/
theorem biasRows_apply (b : FVec Ideal S1x256 .f32) (i : S1000x256.Idx) :
    broadcastTo S1000x256 b broadcasts_S1x256_S1000x256 i = b (biasRowAt i) :=
  broadcastTo_apply b broadcasts_S1x256_S1000x256 i (biasRowAt i) (fun a => match a with
    | ⟨0, _⟩ => by show 0 = if (1 : Nat) = 1 then 0 else _; rw [if_pos rfl]
    | ⟨1, _⟩ => by show (i 1).val = if (256 : Nat) = 1 then 0 else (i 1).val; rw [if_neg (by decide)])

/-- THE ACCUMULATOR at an index: the packed bias in that column plus the row's product with that packed column. -/
theorem acc_apply (b : Vec Ideal S1x256 .f32) (x : Vec Ideal S1000x4096 .f32) (w : Vec Ideal S4096x256 .f32) (i : S1000x256.Idx) :
    k0_pay1 (F := Ideal) b x w i = b (biasRowAt i) + ∑ k : Fin 4096, x (rowAt i k) * w (colAt i k) := by
  unfold k0_pay1
  show ((broadcastTo S1000x256 (shapeCast S1x256 b shapeCasts_S1x256_S1x256) broadcasts_S1x256_S1000x256 : FVec Ideal S1000x256 .f32) i)
      + ((matmul (F := Ideal) dot_S1000x4096_S4096x256_S1000x256_1_0_0_1_n_n none x (shapeCast S4096x256 w shapeCasts_S4096x256_S4096x256) (constant (F := Ideal) S1000x256 .f32 0x00000000#32) : FVec Ideal S1000x256 .f32) i) = _
  rw [shapeCast_self, shapeCast_self, biasRows_apply, product_apply]

end Cert.KernelIdeal.Fused

end
-- ==== Proof.PackedOperands.lean ====
/-
  The two arrays the host packs for the kernel, read at an index.

  The packed weights W' : [4096, 256] are W_cls zero-extended from 21 to 128 columns, beside W_box zero-extended from 80
  to 128 columns; the packed bias row b' : [1, 256] is b_cls zero-extended to 128 entries followed by b_box zero-extended
  to 128 entries, reshaped to one row. So

      W'[k, q] = W_cls[k, q]  (q < 21),     W'[k, 128 + q] = W_box[k, q]  (q < 80),
      b'[0, q] = b_cls[q]     (q < 21),     b'[0, 128 + q] = b_box[q]     (q < 80).

  The padding value (the integer zero converted to a float) sits only in columns the kernel never stores, so it is never
  read here.
-/
import proofs.«170445_g790273982473_cont_9to1c4b_231_13_alg».proof.Proof.Gen.KernelIdeal.Frame
import Idealize.ShloMosaic.Lib.Pipeline.Value
import Idealize.ShloMosaic.Lib.KernelVsHost
import Idealize.ShloMosaic.Lib.StableHlo.Run

noncomputable section

namespace Cert.KernelIdeal.Packed

open Cert.KernelIdeal Cert.KernelIdeal.Gen Idealize.ShloMosaic Idealize.ShloMosaic.TcCoe Idealize.SL.Sem Idealize.ShloMosaic.StableHlo

/-! ## The packing, over any two matrices and any two vectors -/

section Pure

variable {α : Type}

/-- Two matrices zero-extended to 128 columns each and laid side by side. -/
abbrev sideBySide (w1 : S4096x21.Idx → α) (w2 : S4096x80.Idx → α) (z1 z2 : S_.Idx → α) : S4096x256.Idx → α :=
  concatenate S4096x256 1
    [⟨S4096x128, pad S4096x128 ![0, 0] ![0, 107] ![0, 0] w1 z1 pads_S4096x21_S4096x128_000_01070 h_S_⟩,
     ⟨S4096x128, pad S4096x128 ![0, 0] ![0, 48] ![0, 0] w2 z2 pads_S4096x80_S4096x128_000_0480 h_S_⟩]
    concatenates_S4096x128_S4096x128_S4096x256_d1

/-- Two vectors zero-extended to 128 entries each, one after the other, as one row. -/
abbrev endToEnd (b1 : S21.Idx → α) (b2 : S80.Idx → α) (z1 z2 : S_.Idx → α) : S1x256.Idx → α :=
  shapeCast S1x256
    (concatenate S256 0
      [⟨S128, pad S128 ![0] ![107] ![0] b1 z1 pads_S21_S128_01070 h_S_⟩,
       ⟨S128, pad S128 ![0] ![48] ![0] b2 z2 pads_S80_S128_0480 h_S_⟩]
      concatenates_S128_S128_S256_d0)
    shapeCasts_S256_S1x256

/-- A column below 21 of the packed matrix is that column of the first matrix. -/
theorem sideBySide_first (w1 : S4096x21.Idx → α) (w2 : S4096x80.Idx → α) (z1 z2 : S_.Idx → α) (j : S4096x256.Idx) (i : S4096x21.Idx)
    (h0 : (j 0).val = (i 0).val) (h1 : (j 1).val = (i 1).val) : sideBySide w1 w2 z1 z2 j = w1 i := by
  have hi1 : (i 1).val < 21 := (i 1).isLt
  have hj0 : (j 0).val < 4096 := (j 0).isLt
  refine (concatenate_pair_apply_left (1 : Fin S4096x256.rank) _ _ concatenates_S4096x128_S4096x128_S4096x256_d1 j rfl
    (fun a => match a with
      | ⟨0, _⟩ => ⟨(j 0).val, by show (j 0).val < 4096; omega⟩
      | ⟨1, _⟩ => ⟨(j 1).val, by show (j 1).val < 128; omega⟩ : S4096x128.Idx)
    (fun b => match b with | ⟨0, _⟩ => rfl | ⟨1, _⟩ => rfl)).trans ?_
  exact pad_apply_of_inside ![0, 0] ![0, 107] ![0, 0] w1 z1 pads_S4096x21_S4096x128_000_01070 h_S_ _ i
    (fun a => match a with
      | ⟨0, _⟩ => by show (j 0).val = 0 + (i 0).val * (0 + 1); omega
      | ⟨1, _⟩ => by show (j 1).val = 0 + (i 1).val * (0 + 1); omega)

/-- A column 128 + q, q below 80, of the packed matrix is column q of the second matrix. -/
theorem sideBySide_second (w1 : S4096x21.Idx → α) (w2 : S4096x80.Idx → α) (z1 z2 : S_.Idx → α) (j : S4096x256.Idx) (i : S4096x80.Idx)
    (h0 : (j 0).val = (i 0).val) (h1 : (j 1).val = (i 1).val + 128) : sideBySide w1 w2 z1 z2 j = w2 i := by
  have hi1 : (i 1).val < 80 := (i 1).isLt
  have hj0 : (j 0).val < 4096 := (j 0).isLt
  refine (concatenate_pair_apply_right (1 : Fin S4096x256.rank) _ _ concatenates_S4096x128_S4096x128_S4096x256_d1 j rfl rfl
    (fun a => match a with
      | ⟨0, _⟩ => ⟨(j 0).val, by show (j 0).val < 4096; omega⟩
      | ⟨1, _⟩ => ⟨(i 1).val, by show (i 1).val < 128; omega⟩ : S4096x128.Idx)
    (fun b hb => match b, hb with
      | ⟨0, _⟩, _ => rfl
      | ⟨1, _⟩, hb => absurd (Fin.ext rfl) hb)
    (by show (i 1).val + 128 = (j 1).val; omega)).trans ?_
  exact pad_apply_of_inside ![0, 0] ![0, 48] ![0, 0] w2 z2 pads_S4096x80_S4096x128_000_0480 h_S_ _ i
    (fun a => match a with
      | ⟨0, _⟩ => by show (j 0).val = 0 + (i 0).val * (0 + 1); omega
      | ⟨1, _⟩ => by show (i 1).val = 0 + (i 1).val * (0 + 1); omega)

/-- An entry below 21 of the packed row is that entry of the first vector. -/
theorem endToEnd_first (b1 : S21.Idx → α) (b2 : S80.Idx → α) (z1 z2 : S_.Idx → α) (j : S1x256.Idx) (i : S21.Idx)
    (h : (j 1).val = (i 0).val) : endToEnd b1 b2 z1 z2 j = b1 i := by
  have hi : (i 0).val < 21 := (i 0).isLt
  have hj0 : (j 0).val < 1 := (j 0).isLt
  refine (shapeCast_apply _ shapeCasts_S256_S1x256 j
    (fun a => match a with | ⟨0, _⟩ => ⟨(j 1).val, by show (j 1).val < 256; omega⟩ : S256.Idx)
    (by rw [Shape.rowMajor_val_one, Shape.rowMajor_val_two]; show (j 1).val = (j 0).val * 256 + (j 1).val; omega)).trans ?_
  refine (concatenate_pair_apply_left (0 : Fin S256.rank) _ _ concatenates_S128_S128_S256_d0 _ rfl
    (fun a => match a with | ⟨0, _⟩ => ⟨(j 1).val, by show (j 1).val < 128; omega⟩ : S128.Idx)
    (fun b => match b with | ⟨0, _⟩ => rfl)).trans ?_
  exact pad_apply_of_inside ![0] ![107] ![0] b1 z1 pads_S21_S128_01070 h_S_ _ i
    (fun a => match a with
      | ⟨0, _⟩ => by show (j 1).val = 0 + (i 0).val * (0 + 1); omega)

/-- An entry 128 + q, q below 80, of the packed row is entry q of the second vector. -/
theorem endToEnd_second (b1 : S21.Idx → α) (b2 : S80.Idx → α) (z1 z2 : S_.Idx → α) (j : S1x256.Idx) (i : S80.Idx)
    (h : (j 1).val = (i 0).val + 128) : endToEnd b1 b2 z1 z2 j = b2 i := by
  have hi : (i 0).val < 80 := (i 0).isLt
  have hj0 : (j 0).val < 1 := (j 0).isLt
  refine (shapeCast_apply _ shapeCasts_S256_S1x256 j
    (fun a => match a with | ⟨0, _⟩ => ⟨(j 1).val, by show (j 1).val < 256; omega⟩ : S256.Idx)
    (by rw [Shape.rowMajor_val_one, Shape.rowMajor_val_two]; show (j 1).val = (j 0).val * 256 + (j 1).val; omega)).trans ?_
  refine (concatenate_pair_apply_right (0 : Fin S256.rank) _ _ concatenates_S128_S128_S256_d0 _ rfl rfl
    (fun a => match a with | ⟨0, _⟩ => ⟨(i 0).val, by show (i 0).val < 128; omega⟩ : S128.Idx)
    (fun b hb => match b, hb with
      | ⟨0, _⟩, hb => absurd (Fin.ext rfl) hb)
    (by show (i 0).val + 128 = (j 1).val; omega)).trans ?_
  exact pad_apply_of_inside ![0] ![48] ![0] b2 z2 pads_S80_S128_0480 h_S_ _ i
    (fun a => match a with
      | ⟨0, _⟩ => by show (i 0).val = 0 + (i 0).val * (0 + 1); omega)

end Pure

/-! ## What the region finds in its second and third operands -/

variable {F : FTy → Type} [FloatOps F]
variable (m : (ℓ : Loc nD τ sig) → Buf (Elt F) ℓ)

/-- The padding value the host computes: the integer zero, converted. -/
abbrev fill : S_.Idx → Elt F .f32 := sitofp .f32 (constantI S_ 32 0#32)

/-- The region's second operand is the two weight matrices packed side by side. -/
theorem weights_eq (c : Dev nD) : (V m c main_v2 : S4096x256.Idx → Elt F .f32)
    = sideBySide (m ((c : Thread nD τ).loc main_arg1)) (m ((c : Thread nD τ).loc main_arg3)) (fill (F := F)) (fill (F := F)) := by
  dsimp only [V]
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

/-- The region's third operand is the two bias vectors packed end to end, as one row. -/
theorem bias_eq (c : Dev nD) : (V m c main_v6 : S1x256.Idx → Elt F .f32)
    = endToEnd (m ((c : Thread nD τ).loc main_arg2)) (m ((c : Thread nD τ).loc main_arg4)) (fill (F := F)) (fill (F := F)) := by
  dsimp only [V]
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

end Cert.KernelIdeal.Packed

end
-- ==== Proof.KernelHeads.lean ====
/-
  From the blocks the kernel writes to the two result arrays.

  Grid point t (of 20) stages rows 1000 t … 1000 t + 999 of the activations, the whole packed weights and the whole
  packed bias row, and writes back rows 1000 t … 1000 t + 999 of both results. Entry (p, j) of the scores block is
  the accumulator's entry (p, j), entry (p, j) of the deltas block its entry (p, 128 + j); with the packed operands read
  back as W_cls, W_box, b_cls, b_box, and the two summands exchanged, each is the head at the array index
  (1000 t + p, j). The 20 row blocks cover each result array (row r lies in block r / 1000), so each array ends holding
  its head everywhere.
-/
import proofs.«170445_g790273982473_cont_9to1c4b_231_13_alg».proof.Proof.Gen.KernelIdeal.Value
import proofs.«170445_g790273982473_cont_9to1c4b_231_13_alg».proof.Proof.Heads
import proofs.«170445_g790273982473_cont_9to1c4b_231_13_alg».proof.Proof.KernelPayload
import proofs.«170445_g790273982473_cont_9to1c4b_231_13_alg».proof.Proof.PackedOperands

set_option maxRecDepth 16384

noncomputable section

namespace Cert.KernelIdeal.Heads

open Cert.KernelIdeal Cert.KernelIdeal.Gen Idealize.ShloMosaic Idealize.ShloMosaic.TcCoe Idealize.SL.Sem
open Idealize.ShloMosaic.Pipeline (Dat)
open Cert.Heads (head actAt weightAt biasAt)
open Cert.KernelIdeal.Fused (rowAt colAt biasRowAt acc_apply)

theorem hz : (![0, 0] : Fin 2 → Nat) = fun _ => 0 := funext fun a => by fin_cases a <;> rfl

/-! ## A block entry, over the loaded blocks as variables -/

/-- Entry `y` of the scores block is the accumulator at `y` itself. -/
theorem scoresBlock_apply (x : Vec Ideal S1000x4096 .f32) (w : Vec Ideal S4096x256 .f32) (b : Vec Ideal S1x256 .f32) (y : S1000x21.Idx) :
    out0_3 x w b y = b (biasRowAt (Value.ix3_0 y)) + ∑ k : Fin 4096, x (rowAt (Value.ix3_0 y) k) * w (colAt (Value.ix3_0 y) k) := by
  unfold out0_3
  rw [Value.canon3_eq]
  simp only [View.ld_unit_zero (S := S1x256) hz, View.ld_unit_zero (S := S1000x4096) hz, View.ld_unit_zero (S := S4096x256) hz]
  exact acc_apply b x w (Value.ix3_0 y)

/-- Entry `y` of the deltas block is the accumulator 128 columns to the right of `y`. -/
theorem deltasBlock_apply (x : Vec Ideal S1000x4096 .f32) (w : Vec Ideal S4096x256 .f32) (b : Vec Ideal S1x256 .f32) (y : S1000x80.Idx) :
    out0_4 x w b y = b (biasRowAt (Value.ix4_0 y)) + ∑ k : Fin 4096, x (rowAt (Value.ix4_0 y) k) * w (colAt (Value.ix4_0 y) k) := by
  unfold out0_4
  rw [Value.canon4_eq]
  simp only [View.ld_unit_zero (S := S1x256) hz, View.ld_unit_zero (S := S1000x4096) hz, View.ld_unit_zero (S := S4096x256) hz]
  exact acc_apply b x w (Value.ix4_0 y)

/-- If the loaded blocks read the argument arrays where the head at array index `i` reads them, entry `y` of the scores
    block is that head at `i`: the bias in front or behind makes no difference to a sum of extended reals. -/
theorem scoresBlock_eq (X : FVec Ideal S20000x4096 .f32) (W : FVec Ideal S4096x21 .f32) (B : FVec Ideal S21 .f32)
    (x : Vec Ideal S1000x4096 .f32) (w : Vec Ideal S4096x256 .f32) (b : Vec Ideal S1x256 .f32) (y : S1000x21.Idx) (i : S20000x21.Idx)
    (hx : ∀ k : Fin 4096, x (rowAt (Value.ix3_0 y) k) = X (actAt i k))
    (hw : ∀ k : Fin 4096, w (colAt (Value.ix3_0 y) k) = W (weightAt i k))
    (hb : b (biasRowAt (Value.ix3_0 y)) = B (biasAt i)) :
    out0_3 x w b y = head X W B i := by
  rw [scoresBlock_apply, hb, add_comm]
  unfold Cert.Heads.head
  refine congrArg (· + B (biasAt i)) (Finset.sum_congr rfl fun k _ => ?_)
  rw [hx k, hw k]

/-- The same for the deltas block. -/
theorem deltasBlock_eq (X : FVec Ideal S20000x4096 .f32) (W : FVec Ideal S4096x80 .f32) (B : FVec Ideal S80 .f32)
    (x : Vec Ideal S1000x4096 .f32) (w : Vec Ideal S4096x256 .f32) (b : Vec Ideal S1x256 .f32) (y : S1000x80.Idx) (i : S20000x80.Idx)
    (hx : ∀ k : Fin 4096, x (rowAt (Value.ix4_0 y) k) = X (actAt i k))
    (hw : ∀ k : Fin 4096, w (colAt (Value.ix4_0 y) k) = W (weightAt i k))
    (hb : b (biasRowAt (Value.ix4_0 y)) = B (biasAt i)) :
    out0_4 x w b y = head X W B i := by
  rw [deltasBlock_apply, hb, add_comm]
  unfold Cert.Heads.head
  refine congrArg (· + B (biasAt i)) (Finset.sum_congr rfl fun k _ => ?_)
  rw [hx k, hw k]

/-! ## The staged blocks, read off the arrays -/

variable (m : (ℓ : Loc nD τ sig) → Buf (Elt Ideal) ℓ) (ρ : Dev nD → PrngReg)

/-- The printed index maps, decided over the 20 grid points: the activations and both results move one block of rows per
    point; the packed weights and the packed bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry `y` of the block of rows at point `t` is the activations' entry `(1000 t + y₀, y₁)`. -/
theorem rows_read (c : Dev nD) (t : Fin cfg0.N) (y : S1000x4096.Idx) (i : S20000x4096.Idx)
    (h0 : (i 0).val = t.val * 1000 + (y 0).val) (h1 : (i 1).val = (y 1).val) :
    iblk m c 0 t y = m ((c : Thread nD τ).loc main_arg0) i := by
  obtain ⟨e0, e1, -⟩ := idx_facts t
  show V m c main_arg0 (((cfg0.win 0).blk t).view.emb y) = _
  rw [V_main_arg0]
  have h : ((cfg0.win 0).blk t).view.emb y = i := by
    funext a; apply Fin.ext
    match a with
    | ⟨0, _⟩ => show win0_0.index t (0 : Fin 2) * 1000 + 1 * (y 0).val = (i 0).val; omega
    | ⟨1, _⟩ => show win0_0.index t (1 : Fin 2) * 4096 + 1 * (y 1).val = (i 1).val; omega
  rw [h]

/-- The staged packed weights are the whole packed array at every point. -/
theorem weights_read (c : Dev nD) (t : Fin cfg0.N) (y : S4096x256.Idx) : iblk m c 1 t y = V m c main_v2 y := by
  obtain ⟨-, -, e0, e1, -⟩ := idx_facts t
  show V m c main_v2 (((cfg0.win 1).blk t).view.emb y) = _
  have h : ((cfg0.win 1).blk t).view.emb y = y := by
    funext a; apply Fin.ext
    match a with
    | ⟨0, _⟩ => show win0_1.index t (0 : Fin 2) * 4096 + 1 * (y 0).val = (y 0).val; omega
    | ⟨1, _⟩ => show win0_1.index t (1 : Fin 2) * 256 + 1 * (y 1).val = (y 1).val; omega
  rw [h]

/-- The staged packed bias row is the whole packed row at every point. -/
theorem bias_read (c : Dev nD) (t : Fin cfg0.N) (y : S1x256.Idx) : iblk m c 2 t y = V m c main_v6 y := by
  obtain ⟨-, -, -, -, e0, e1, -⟩ := idx_facts t
  show V m c main_v6 (((cfg0.win 2).blk t).view.emb y) = _
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 256 + 1 * (y 1).val = (y 1).val; omega
  rw [h]

/-! ## What each point writes back -/

/-- Point `t` writes back block `t` of the classification head. -/
theorem flushed_scores (c : Dev nD) (t : Fin cfg0.N) :
    (dats m 0 c).flushed 3 t = ((cfg0.win 3).blk t).view.read (Elt Ideal)
      (head (m ((c : Thread nD τ).loc main_arg0)) (m ((c : Thread nD τ).loc main_arg1)) (m ((c : Thread nD τ).loc main_arg2))) := by
  rw [Value.flushed3]
  obtain ⟨-, -, -, -, -, -, e0, e1, -⟩ := idx_facts t
  funext y
  show out0_3 (iblk m c 0 t) (iblk m c 1 t) (iblk m c 2 t) y
    = head (m ((c : Thread nD τ).loc main_arg0)) (m ((c : Thread nD τ).loc main_arg1)) (m ((c : Thread nD τ).loc main_arg2)) (((cfg0.win 3).blk t).view.emb y)
  have hi0 : ((((cfg0.win 3).blk t).view.emb y) 0).val = t.val * 1000 + (y 0).val := by
    show win0_3.index t (0 : Fin 2) * 1000 + 1 * (y 0).val = _; omega
  have hi1 : ((((cfg0.win 3).blk t).view.emb y) 1).val = (y 1).val := by
    show win0_3.index t (1 : Fin 2) * 21 + 1 * (y 1).val = _; omega
  refine scoresBlock_eq _ _ _ (iblk m c 0 t) (iblk m c 1 t) (iblk m c 2 t) y _ (fun k => ?_) (fun k => ?_) ?_
  · exact rows_read m c t _ _ hi0 rfl
  · exact (weights_read m c t _).trans ((congrFun (Packed.weights_eq m c) _).trans
      (Packed.sideBySide_first _ _ _ _ _ _ rfl hi1.symm))
  · exact (bias_read m c t _).trans ((congrFun (Packed.bias_eq m c) _).trans
      (Packed.endToEnd_first _ _ _ _ _ _ hi1.symm))

/-- Point `t` writes back block `t` of the box head. -/
theorem flushed_deltas (c : Dev nD) (t : Fin cfg0.N) :
    (dats m 0 c).flushed 4 t = ((cfg0.win 4).blk t).view.read (Elt Ideal)
      (head (m ((c : Thread nD τ).loc main_arg0)) (m ((c : Thread nD τ).loc main_arg3)) (m ((c : Thread nD τ).loc main_arg4))) := by
  rw [Value.flushed4]
  obtain ⟨-, -, -, -, -, -, -, -, e0, e1⟩ := idx_facts t
  funext y
  show out0_4 (iblk m c 0 t) (iblk m c 1 t) (iblk m c 2 t) y
    = head (m ((c : Thread nD τ).loc main_arg0)) (m ((c : Thread nD τ).loc main_arg3)) (m ((c : Thread nD τ).loc main_arg4)) (((cfg0.win 4).blk t).view.emb y)
  have hi0 : ((((cfg0.win 4).blk t).view.emb y) 0).val = t.val * 1000 + (y 0).val := by
    show win0_4.index t (0 : Fin 2) * 1000 + 1 * (y 0).val = _; omega
  have hi1 : ((((cfg0.win 4).blk t).view.emb y) 1).val = (y 1).val := by
    show win0_4.index t (1 : Fin 2) * 80 + 1 * (y 1).val = _; omega
  refine deltasBlock_eq _ _ _ (iblk m c 0 t) (iblk m c 1 t) (iblk m c 2 t) y _ (fun k => ?_) (fun k => ?_) ?_
  · exact rows_read m c t _ _ hi0 rfl
  · exact (weights_read m c t _).trans ((congrFun (Packed.weights_eq m c) _).trans
      (Packed.sideBySide_second _ _ _ _ _ _ rfl (by show (y 1).val + 128 = _ + 128; rw [hi1])))
  · exact (bias_read m c t _).trans ((congrFun (Packed.bias_eq m c) _).trans
      (Packed.endToEnd_second _ _ _ _ _ _ (by show (y 1).val + 128 = _ + 128; rw [hi1])))

/-! ## The blocks cover the arrays -/

/-- An index of the scores array is in point `t`'s block iff each coordinate is in the block's range on its axis. -/
theorem mem_blk_scores (t : Fin cfg0.N) (i : S20000x21.Idx) :
    i ∈ ((cfg0.win 3).blk t).view.set ↔ ∀ a : Fin 2, win0_3.index t a * S1000x21.size a ≤ (i a).val ∧ (i a).val < win0_3.index t a * S1000x21.size a + S1000x21.size a := by
  show i ∈ ((View.whole main_v7_0).slice (win0_3.rect t)).set ↔ _
  rw [View.set_slice_whole, Rect.mem_set_unit]
  exact Iff.rfl

/-- An index of the deltas array is in point `t`'s block iff each coordinate is in the block's range on its axis. -/
theorem mem_blk_deltas (t : Fin cfg0.N) (i : S20000x80.Idx) :
    i ∈ ((cfg0.win 4).blk t).view.set ↔ ∀ a : Fin 2, win0_4.index t a * S1000x80.size a ≤ (i a).val ∧ (i a).val < win0_4.index t a * S1000x80.size a + S1000x80.size a := by
  show i ∈ ((View.whole main_v7_1).slice (win0_4.rect t)).set ↔ _
  rw [View.set_slice_whole, Rect.mem_set_unit]
  exact Iff.rfl

/-- Row `r` of the scores array lies in the block of point `r / 1000`. -/
theorem cover_scores (i : S20000x21.Idx) : ∃ t : Fin cfg0.N, (cfg0.win 3).flush t = true ∧ i ∈ ((cfg0.win 3).blk t).view.set := by
  have hi0 : (i 0).val < 20000 := (i 0).isLt
  have hi1 : (i 1).val < 21 := (i 1).isLt
  have hN : (i 0).val / 1000 < cfg0.N := Nat.lt_of_lt_of_eq (by omega) N_0.symm
  refine ⟨⟨(i 0).val / 1000, hN⟩, flush0_3 _, ?_⟩
  rw [mem_blk_scores]
  obtain ⟨-, -, -, -, -, -, e0, e1, -⟩ := idx_facts ⟨(i 0).val / 1000, hN⟩
  have e0' : win0_3.index ⟨(i 0).val / 1000, hN⟩ (0 : Fin 2) = (i 0).val / 1000 := e0
  intro a
  match a with
  | ⟨0, _⟩ => show win0_3.index ⟨(i 0).val / 1000, hN⟩ (0 : Fin 2) * 1000 ≤ (i 0).val ∧ (i 0).val < win0_3.index ⟨(i 0).val / 1000, hN⟩ (0 : Fin 2) * 1000 + 1000; omega
  | ⟨1, _⟩ => show win0_3.index ⟨(i 0).val / 1000, hN⟩ (1 : Fin 2) * 21 ≤ (i 1).val ∧ (i 1).val < win0_3.index ⟨(i 0).val / 1000, hN⟩ (1 : Fin 2) * 21 + 21; omega

/-- Row `r` of the deltas array lies in the block of point `r / 1000`. -/
theorem cover_deltas (i : S20000x80.Idx) : ∃ t : Fin cfg0.N, (cfg0.win 4).flush t = true ∧ i ∈ ((cfg0.win 4).blk t).view.set := by
  have hi0 : (i 0).val < 20000 := (i 0).isLt
  have hi1 : (i 1).val < 80 := (i 1).isLt
  have hN : (i 0).val / 1000 < cfg0.N := Nat.lt_of_lt_of_eq (by omega) N_0.symm
  refine ⟨⟨(i 0).val / 1000, hN⟩, flush0_4 _, ?_⟩
  rw [mem_blk_deltas]
  obtain ⟨-, -, -, -, -, -, -, -, e0, e1⟩ := idx_facts ⟨(i 0).val / 1000, hN⟩
  have e0' : win0_4.index ⟨(i 0).val / 1000, hN⟩ (0 : Fin 2) = (i 0).val / 1000 := e0
  intro a
  match a with
  | ⟨0, _⟩ => show win0_4.index ⟨(i 0).val / 1000, hN⟩ (0 : Fin 2) * 1000 ≤ (i 0).val ∧ (i 0).val < win0_4.index ⟨(i 0).val / 1000, hN⟩ (0 : Fin 2) * 1000 + 1000; omega
  | ⟨1, _⟩ => show win0_4.index ⟨(i 0).val / 1000, hN⟩ (1 : Fin 2) * 80 ≤ (i 1).val ∧ (i 1).val < win0_4.index ⟨(i 0).val / 1000, hN⟩ (1 : Fin 2) * 80 + 80; omega

/-! ## The arrays after the run, and the run -/

/-- The first result array ends holding the classification head. -/
theorem scores_final (c : Dev nD) : (dats m 0 c).arrAt 3 cfg0.N
    = head (m ((c : Thread nD τ).loc main_arg0)) (m ((c : Thread nD τ).loc main_arg1)) (m ((c : Thread nD τ).loc main_arg2)) :=
  (dats m 0 c).arrAt_eq_of_cover 3 _ (fun t _ => flushed_scores m c t) cover_scores

/-- The second result array ends holding the box head. -/
theorem deltas_final (c : Dev nD) : (dats m 0 c).arrAt 4 cfg0.N
    = head (m ((c : Thread nD τ).loc main_arg0)) (m ((c : Thread nD τ).loc main_arg3)) (m ((c : Thread nD τ).loc main_arg4)) :=
  (dats m 0 c).arrAt_eq_of_cover 4 _ (fun t _ => flushed_deltas m c t) cover_deltas

/-- Every weakly fair execution of the idealized kernel ends with the two results at the two heads of the launch arrays,
    the arguments unchanged. -/
theorem run : θ_run defs (onTc (τ := τ) (main (F := Ideal))) ⟨m, fun _ => 0, ρ⟩ fun r => ∀ c : Dev nD,
      r.2.mem ((c : Thread nD τ).loc main_v7_0)
        = head (m ((c : Thread nD τ).loc main_arg0)) (m ((c : Thread nD τ).loc main_arg1)) (m ((c : Thread nD τ).loc main_arg2))
      ∧ r.2.mem ((c : Thread nD τ).loc main_v7_1)
        = head (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (scores_final m c), (h c).2.1.trans (deltas_final m c), (h c).2.2⟩)
    (Value.run_blocks m ρ)

end Cert.KernelIdeal.Heads

end
-- ==== Proof.ReferenceHeads.lean ====
/-
  The reference's two results are the two heads. Its program multiplies the whole activation matrix by each weight matrix,
  copies the bias along the rows (through a [1, N] row) and adds; read at an index, stage by stage, that is
  `(∑ k, x[r, k] · W[k, j]) + b[j]`, which is `Cert.Heads.head` as written.
-/
import proofs.«170445_g790273982473_cont_9to1c4b_231_13_alg».proof.Proof.Gen.ReferenceIdeal.Read
import proofs.«170445_g790273982473_cont_9to1c4b_231_13_alg».proof.Proof.Heads

noncomputable section

namespace Cert.ReferenceIdeal.Heads

open Cert.ReferenceIdeal Cert.ReferenceIdeal.Gen Cert.ReferenceIdeal.Read Idealize.ShloMosaic

/-- The classification scores: the stage the run ends `main_v3` at is the head of `(W_cls, b_cls)`. -/
theorem scores_eq (x : FVec Ideal S20000x4096 .f32) (w : FVec Ideal S4096x21 .f32) (b : FVec Ideal S21 .f32) :
    val_main_v3 (F := Ideal) x w b = Cert.Heads.head x w b := by
  funext i
  unfold Cert.Heads.head
  rw [val_main_v3_apply, val_main_v0_apply, val_main_v2_apply, val_main_v1_apply, Ideal.addf_def]
  have hb : idx_main_v1 (idx_main_v2 i) = Cert.Heads.biasAt i := funext fun a => Fin.ext (by
    match a with
    | ⟨0, _⟩ => rfl)
  rw [hb]
  refine congrArg (· + b (Cert.Heads.biasAt i)) (Finset.sum_congr rfl fun k _ => ?_)
  have hl : lidx_main_v0 i k = Cert.Heads.actAt i k := funext fun a => Fin.ext (by
    match a with
    | ⟨0, _⟩ => rfl
    | ⟨1, _⟩ => rfl)
  have hr : ridx_main_v0 i k = Cert.Heads.weightAt i k := funext fun a => Fin.ext (by
    match a with
    | ⟨0, _⟩ => rfl
    | ⟨1, _⟩ => rfl)
  rw [hl, hr]

/-- The box deltas: the stage the run ends `main_v7` at is the head of `(W_box, b_box)`. -/
theorem deltas_eq (x : FVec Ideal S20000x4096 .f32) (w : FVec Ideal S4096x80 .f32) (b : FVec Ideal S80 .f32) :
    val_main_v7 (F := Ideal) x w b = Cert.Heads.head x w b := by
  funext i
  unfold Cert.Heads.head
  rw [val_main_v7_apply, val_main_v4_apply, val_main_v6_apply, val_main_v5_apply, Ideal.addf_def]
  have hb : idx_main_v5 (idx_main_v6 i) = Cert.Heads.biasAt i := funext fun a => Fin.ext (by
    match a with
    | ⟨0, _⟩ => rfl)
  rw [hb]
  refine congrArg (· + b (Cert.Heads.biasAt i)) (Finset.sum_congr rfl fun k _ => ?_)
  have hl : lidx_main_v4 i k = Cert.Heads.actAt i k := funext fun a => Fin.ext (by
    match a with
    | ⟨0, _⟩ => rfl
    | ⟨1, _⟩ => rfl)
  have hr : ridx_main_v4 i k = Cert.Heads.weightAt i k := funext fun a => Fin.ext (by
    match a with
    | ⟨0, _⟩ => rfl
    | ⟨1, _⟩ => rfl)
  rw [hl, hr]

end Cert.ReferenceIdeal.Heads

end
-- ==== Proof.lean ====
/-
  The fused two-head output layer against its reference: `scores = x · W_cls + b_cls` ([20000, 21]) and
  `deltas = x · W_box + b_box` ([20000, 80]) for activations x : [20000, 4096].

  The reference multiplies the whole activation matrix by each weight matrix and adds the bias along the rows. The kernel
  walks the 20 blocks of 1000 rows once: the host lays the two weight matrices side by side in one [4096, 256] matrix
  (each zero-extended to 128 columns) and the two biases end to end in one [1, 256] row, and the body forms
  `bias row + block · packed weights` and keeps columns 0 … 20 for the scores and 128 … 207 for the deltas. At the ideal
  instance the product into a zero accumulator and the host's product are the same sum over the 4096 contracted
  positions, the kept columns never meet the padding, and the bias in front or behind is the same sum of two extended
  reals; so entry by entry both programs compute `Cert.Heads.head`. No finiteness of the inputs is used, and no
  operation was rewritten when the kernel was idealized, so the idealization claim is empty.

  `Proof/Heads.lean` states the head; `Proof/ReferenceHeads.lean` reads the reference's two results as heads;
  `Proof/KernelPayload.lean` reads the body's accumulator at an index, `Proof/PackedOperands.lean` the packed weights
  and bias, `Proof/KernelHeads.lean` goes from the blocks written at each grid point to the whole result arrays.
-/
import proofs.«170445_g790273982473_cont_9to1c4b_231_13_alg».proof.Defs
import proofs.«170445_g790273982473_cont_9to1c4b_231_13_alg».proof.Proof.Gen.Kernel
import proofs.«170445_g790273982473_cont_9to1c4b_231_13_alg».proof.Proof.Gen.Kernel.Skeleton
import proofs.«170445_g790273982473_cont_9to1c4b_231_13_alg».proof.Proof.Gen.Kernel.Launch
import proofs.«170445_g790273982473_cont_9to1c4b_231_13_alg».proof.Proof.Gen.Kernel.Points
import proofs.«170445_g790273982473_cont_9to1c4b_231_13_alg».proof.Proof.Gen.Kernel.Frame
import proofs.«170445_g790273982473_cont_9to1c4b_231_13_alg».proof.Proof.Gen.KernelIdeal
import proofs.«170445_g790273982473_cont_9to1c4b_231_13_alg».proof.Proof.Gen.KernelIdeal.Skeleton
import proofs.«170445_g790273982473_cont_9to1c4b_231_13_alg».proof.Proof.Gen.KernelIdeal.Launch
import proofs.«170445_g790273982473_cont_9to1c4b_231_13_alg».proof.Proof.Gen.KernelIdeal.Points
import proofs.«170445_g790273982473_cont_9to1c4b_231_13_alg».proof.Proof.Gen.KernelIdeal.Frame
import proofs.«170445_g790273982473_cont_9to1c4b_231_13_alg».proof.Proof.Gen.ReferenceIdeal
import proofs.«170445_g790273982473_cont_9to1c4b_231_13_alg».proof.Proof.Gen.Pre_finite_inputs
import proofs.«170445_g790273982473_cont_9to1c4b_231_13_alg».proof.Proof.Gen.KernelIdeal.Value
import proofs.«170445_g790273982473_cont_9to1c4b_231_13_alg».proof.Proof.Gen.ReferenceIdeal.Run
import proofs.«170445_g790273982473_cont_9to1c4b_231_13_alg».proof.Proof.Gen.ReferenceIdeal.Read
import proofs.«170445_g790273982473_cont_9to1c4b_231_13_alg».proof.Proof.KernelHeads
import proofs.«170445_g790273982473_cont_9to1c4b_231_13_alg».proof.Proof.ReferenceHeads
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's run, with its two results forgotten, is its frame. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its idealization. -/
theorem preserves : Cert.preserves_Kernel_KernelIdeal := trivial

/-- From memories that agree on the five arguments, both idealized programs end with the scores at the head of
    `(W_cls, b_cls)` and the deltas at the head of `(W_box, b_box)`, entry by entry the same extended reals. -/
theorem algebraic : Cert.algebraic_KernelIdeal_ReferenceIdeal := by
  intro m ρ m' ρ' _ hagree
  refine ⟨fun c => Cert.Heads.head (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Heads.head (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Heads.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1]
    exact (Cert.ReferenceIdeal.Read.val_main_v3_eq _ _ _).trans (Cert.ReferenceIdeal.Heads.scores_eq _ _ _)
  · rw [(hagree c).1, (hagree c).2.2.2.1, (hagree c).2.2.2.2]
    exact (Cert.ReferenceIdeal.Read.val_main_v7_eq _ _ _).trans (Cert.ReferenceIdeal.Heads.deltas_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
